-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S64x4096 : Shape := ⟨2, ![64, 4096]⟩
abbrev S64x64 : Shape := ⟨2, ![64, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  main_v58

def fn_part2 {F : FTy → Type} [FloatOps F] (main_arg7 : FVec F S64 .f32) (main_arg8 : FVec F S64x4096 .f32) (main_arg9 : FVec F S64 .f32) (main_arg10 : FVec F S64 .f32) (main_arg11 : FVec F S64x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x4096 .f32 := Host.absf main_arg8
  let main_cst_14 : FVec F S_ .f32 := constant S_ .f32 0x7F800000#32
  let main_v40 : FVec F S64x4096 .f32 := broadcastInDim S64x4096 ![] bcast_S_S64x4096 main_cst_14
  let main_v41 : IVec S64x4096 1 := cmpf .olt main_v39 main_v40
  let main_c_15 : IVec S_ 1 := constantI S_ 1 1#1
  let main_v42 : IVec S_ 1 := (fun x v => Host.reduce IntOp.andi x v reducesTo_S64x4096_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S64 .f32) (main_arg5 : FVec F S64x4096 .f32) (main_arg6 : FVec F S4096x64 .f32) (main_arg7 : FVec F S64 .f32) (main_arg8 : FVec F S64x4096 .f32) (main_arg9 : FVec F S64 .f32) (main_arg10 : FVec F S64 .f32) (main_arg11 : FVec F S64x64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4096 .f32 := Host.absf main_arg5
  let main_cst_8 : FVec F S_ .f32 := constant S_ .f32 0x7F800000#32
  let main_v25 : FVec F S64x4096 .f32 := broadcastInDim S64x4096 ![] bcast_S_S64x4096 main_cst_8
  let main_v26 : IVec S64x4096 1 := cmpf .olt main_v24 main_v25
  let main_c_9 : IVec S_ 1 := constantI S_ 1 1#1
  let main_v27 : IVec S_ 1 := (fun x v => Host.reduce IntOp.andi x v reducesTo_S64x4096_S_d0_1 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x4096x4096 .f32) (main_arg1 : FVec F S4096x4096 .f32) (main_arg2 : FVec F S4096 .f32) (main_arg3 : FVec F S4096x64 .f32) (main_arg4 : FVec F S64 .f32) (main_arg5 : FVec F S64x4096 .f32) (main_arg6 : FVec F S4096x64 .f32) (main_arg7 : FVec F S64 .f32) (main_arg8 : FVec F S64x4096 .f32) (main_arg9 : FVec F S64 .f32) (main_arg10 : FVec F S64 .f32) (main_arg11 : FVec F S64x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_arg6 main_arg7 main_arg8 main_arg9 main_arg10 main_arg11 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S64x4096 : Shape := ⟨2, ![64, 4096]⟩
abbrev S64x64 : Shape := ⟨2, ![64, 64]⟩
abbrev S16384x4096 : Shape := ⟨2, ![16384, 4096]⟩
abbrev S2048x512 : Shape := ⟨2, ![2048, 512]⟩
abbrev S512x512 : Shape := ⟨2, ![512, 512]⟩
abbrev S512x64 : Shape := ⟨2, ![512, 64]⟩
abbrev S64x512 : Shape := ⟨2, ![64, 512]⟩
abbrev S512 : Shape := ⟨1, ![512]⟩
abbrev S1x64 : Shape := ⟨2, ![1, 64]⟩
abbrev S1x512 : Shape := ⟨2, ![1, 512]⟩

abbrev nBuf : Space → Nat
  | .hbm => 22
  | .vmem => 22
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S64x4096, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S16384x4096, .f32⟩
  | .hbm, ⟨13, _⟩ => ⟨S16384x4096, .bf16⟩
  | .hbm, ⟨14, _⟩ => ⟨S4096x4096, .bf16⟩
  | .hbm, ⟨15, _⟩ => ⟨S4096x64, .bf16⟩
  | .hbm, ⟨16, _⟩ => ⟨S64x4096, .bf16⟩
  | .hbm, ⟨17, _⟩ => ⟨S4096x64, .bf16⟩
  | .hbm, ⟨18, _⟩ => ⟨S64x4096, .bf16⟩
  | .hbm, ⟨19, _⟩ => ⟨S64x64, .bf16⟩
  | .hbm, ⟨20, _⟩ => ⟨S16384x4096, .f32⟩
  | .hbm, ⟨21, _⟩ => ⟨S4x4096x4096, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S512x64, .bf16⟩
  | .local _ .vmem, ⟨5, _⟩ => ⟨S512x64, .bf16⟩
  | .local _ .vmem, ⟨6, _⟩ => ⟨S64x512, .bf16⟩
  | .local _ .vmem, ⟨7, _⟩ => ⟨S64x512, .bf16⟩
  | .local _ .vmem, ⟨8, _⟩ => ⟨S512x64, .bf16⟩
  | .local _ .vmem, ⟨9, _⟩ => ⟨S512x64, .bf16⟩
  | .local _ .vmem, ⟨10, _⟩ => ⟨S64x512, .bf16⟩
  | .local _ .vmem, ⟨11, _⟩ => ⟨S64x512, .bf16⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64x64, .bf16⟩
  | .local _ .vmem, ⟨17, _⟩ => ⟨S512, .f32⟩
  | .local _ .vmem, ⟨18, _⟩ => ⟨S512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v49 : BitVec 1 := Scalar.cmpi .eq arg2 c7_i32
  let v50 : BitVec 32 := Scalar.extui v49
  let c0_i32_26 : BitVec 32 := 0#32
  let v51 : BitVec 1 := Scalar.cmpi .ne v50 c0_i32_26
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

class Facts₀ : Prop where
  shapeCasts_S4x4096x4096_S16384x4096 : S4x4096x4096.ShapeCasts S16384x4096
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S64_S64_0 : ∀ a, (![0] : Fin 1 → Nat) a + S64.size a ≤ S64.size a
  h_S64 : 0 < S64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S64_S1x64 : S64.ShapeCasts S1x64
  broadcasts_S1x64_S512x64 : S1x64.Broadcasts S512x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S16384x4096_S4x4096x4096 : S16384x4096.ShapeCasts S4x4096x4096
  dot_S64x64_S64x512_S64x512_1_0_0_1_n_n_wf : DotDims.WF S64x64 S64x512 S64x512 [1] [0] [0] [1] [] []
  dot_S512x64_S64x512_S512x512_1_0_0_1_n_n_wf : DotDims.WF S512x64 S64x512 S512x512 [1] [0] [0] [1] [] []
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .bf16 = 32 ∨ (Rect.block (s := S4096x64) S512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x4096.size a
  hwx0_3 : ∀ i : grid0.Coords, EltTy.bits .bf16 = 32 ∨ (Rect.block (s := S64x4096) S64x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S4096x64.size a
  hwx0_4 : ∀ i : grid0.Coords, EltTy.bits .bf16 = 32 ∨ (Rect.block (s := S4096x64) S512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x4096.size a
  hwx0_5 : ∀ i : grid0.Coords, EltTy.bits .bf16 = 32 ∨ (Rect.block (s := S64x4096) S64x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S4096.size a
  hwx0_11 : ∀ i : grid0.Coords, EltTy.bits .f32 = 32 ∨ (Rect.block (s := S4096) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x512.size a ≤ S16384x4096.size a
  hwx0_12 : ∀ i : grid0.Coords, EltTy.bits .f32 = 32 ∨ (Rect.block (s := S16384x4096) S2048x512.size (cc0_transform_12 i) (hinb0_12 i)).WholeWords (EltTy.packing .f32)

variable [Facts₀]

def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg2) S512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8) S2048x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S64x4096 : Shape := ⟨2, ![64, 4096]⟩
abbrev S64x64 : Shape := ⟨2, ![64, 64]⟩
abbrev S_ : Shape := ⟨0, ![]⟩
abbrev S1x64 : Shape := ⟨2, ![1, 64]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S64x4096, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x4096, .f32⟩
  | .hbm, ⟨21, _⟩ => ⟨S1x64, .f32⟩
  | .hbm, ⟨22, _⟩ => ⟨S4096x64, .f32⟩
  | .hbm, ⟨23, _⟩ => ⟨S4096x64, .f32⟩
  | .hbm, ⟨24, _⟩ => ⟨S64x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4x4096x4096, .f32⟩
  | .hbm, ⟨29, _⟩ => ⟨S1x1x4096, .f32⟩
  | .hbm, ⟨30, _⟩ => ⟨S4x4096x4096, .f32⟩
  | .hbm, ⟨31, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_cst : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x64_S64x4096_S4096x4096_1_0_0_1_n_n_wf : DotDims.WF S4096x64 S64x4096 S4096x4096 [1] [0] [0] [1] [] []
  dot_S64x64_S64x4096_S64x4096_1_0_0_1_n_n_wf : DotDims.WF S64x64 S64x4096 S64x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Spec.lean ====
/-
  The function both programs compute, over the extended reals.

  A linear layer whose weight is adapted by two rank-64 corrections before use:
    gate r        = max (S_top r * alpha r + beta r) 0
    top n k       = Σ_r (U_top n r * gate r) * Vh_top r k
    mixed r k     = Σ_s R r s * Vh_tail s k
    tail n k      = Σ_r (U_tail n r * S_tail r) * mixed r k
    weight n k    = (W n k + top n k) + tail n k
    out b s o     = (Σ_k x b s k * weight o k) + bias o
  Every sum is a finite sum in the additive commutative monoid of the extended reals, so it may be cut into
  consecutive runs and the runs added in order: the only law the certificate needs (`sum_range_blocks`).
-/
import Idealize.ShloMosaic.PureOps.Ideal.Laws
import Idealize.ShloMosaic.Lib.ValueIdx

noncomputable section

open scoped BigOperators

namespace Cert.Salt

open Idealize.ShloMosaic Idealize.ShloMosaic.ValueIdx

/-- The twelve argument arrays, as functions of their indices. -/
structure Inputs where
  x : (⟨3, ![4, 4096, 4096]⟩ : Shape).Idx → EReal
  W : (⟨2, ![4096, 4096]⟩ : Shape).Idx → EReal
  bias : (⟨1, ![4096]⟩ : Shape).Idx → EReal
  Utop : (⟨2, ![4096, 64]⟩ : Shape).Idx → EReal
  Stop : (⟨1, ![64]⟩ : Shape).Idx → EReal
  VhTop : (⟨2, ![64, 4096]⟩ : Shape).Idx → EReal
  Utail : (⟨2, ![4096, 64]⟩ : Shape).Idx → EReal
  Stail : (⟨1, ![64]⟩ : Shape).Idx → EReal
  VhTail : (⟨2, ![64, 4096]⟩ : Shape).Idx → EReal
  alpha : (⟨1, ![64]⟩ : Shape).Idx → EReal
  beta : (⟨1, ![64]⟩ : Shape).Idx → EReal
  R : (⟨2, ![64, 64]⟩ : Shape).Idx → EReal

variable (I : Inputs)

/-- The gated singular values of the top correction: `max (S_top * alpha + beta) 0`. -/
def gate (r : Fin 64) : EReal :=
  max (I.Stop (ix1 r) * I.alpha (ix1 r) + I.beta (ix1 r)) (Ideal.ofBits .f32 0x00000000#32)

/-- The top correction `(U_top · diag gate) · Vh_top`. -/
def top (n k : Fin 4096) : EReal := ∑ r : Fin 64, (I.Utop (ix2 n r) * gate I r) * I.VhTop (ix2 r k)

/-- `R · Vh_tail`. -/
def mixed (r : Fin 64) (k : Fin 4096) : EReal := ∑ s : Fin 64, I.R (ix2 r s) * I.VhTail (ix2 s k)

/-- The tail correction `(U_tail · diag S_tail) · (R · Vh_tail)`. -/
def tail (n k : Fin 4096) : EReal := ∑ r : Fin 64, (I.Utail (ix2 n r) * I.Stail (ix1 r)) * mixed I r k

/-- The adapted weight. -/
def weight (n k : Fin 4096) : EReal := (I.W (ix2 n k) + top I n k) + tail I n k

/-- One entry of the layer's output. -/
def out (b : Fin 4) (s o : Fin 4096) : EReal := (∑ k : Fin 4096, I.x (ix3 b s k) * weight I o k) + I.bias (ix1 o)

/-- The whole output array. -/
def result : (⟨3, ![4, 4096, 4096]⟩ : Shape).Idx → EReal := fun i => out I (i 0) (i 1) (i 2)

theorem result_ix3 (b : Fin 4) (s o : Fin 4096) : result I (ix3 b s o) = out I b s o := rfl

/-! ## A sum over 4096 indices, cut into 8 consecutive runs of 512 -/

/-- A function of `Fin 4096` read at a natural number, `0` past the end. -/
def ext0 (f : Fin 4096 → EReal) (k : ℕ) : EReal := if h : k < 4096 then f ⟨k, h⟩ else 0

theorem ext0_of_lt (f : Fin 4096 → EReal) (k : ℕ) (h : k < 4096) : ext0 f k = f ⟨k, h⟩ := dif_pos h

/-- The sum over `Fin 4096` as 8 runs of 512 consecutive indices, the runs added in order. -/
theorem sum_range_blocks (f : Fin 4096 → EReal) :
    ∑ a ∈ Finset.range 8, ∑ b : Fin 512, ext0 f (512 * a + b.val) = ∑ k : Fin 4096, f k := by
  rw [Finset.sum_range (fun a => ∑ b : Fin 512, ext0 f (512 * a + b.val))]
  rw [← Fintype.sum_prod_type' (f := fun (a : Fin 8) (b : Fin 512) => ext0 f (512 * a.val + b.val))]
  refine Fintype.sum_equiv ((finProdFinEquiv (m := 8) (n := 512)).trans (finCongr (by norm_num))) _ _ fun p => ?_
  have h1 := p.1.isLt
  have h2 := p.2.isLt
  rw [ext0_of_lt f _ (by omega)]
  congr 1
  apply Fin.ext
  simp [finProdFinEquiv]
  omega

end Cert.Salt

end
-- ==== Proof.RefValue.lean ====
/-
  The reference program's result, stage by stage, is the specification `Cert.Salt.result` of its twelve arguments:
  the gate is `max (S_top * alpha + beta) 0` broadcast along the rows of `U_top`, the three products are plain sums
  over their one contracted axis, and the bias is broadcast along the two leading axes.
-/
import proofs.«108158_j38568806318480_1_alg».proof.Proof.Gen.ReferenceIdeal.Run
import proofs.«108158_j38568806318480_1_alg».proof.Proof.Gen.ReferenceIdeal.Read
import proofs.«108158_j38568806318480_1_alg».proof.Proof.Spec

noncomputable section

open scoped BigOperators

namespace Cert.ReferenceIdeal.RefValue

open Cert.ReferenceIdeal Cert.ReferenceIdeal.Gen Idealize.ShloMosaic Idealize.ShloMosaic.ValueIdx

/-! ## The stages at coordinates

Each stage of the reference is read at an index given by its coordinates and identified with the matching function of
the specification. A broadcast reads its operand at the coordinates it keeps; a product of two arrays over one
contracted axis is the sum over that axis of the products of the entries. -/

variable (I : Cert.Salt.Inputs)

/-- The rectified affine image of the top singular values, `max (S_top r * alpha r + beta r) 0`. -/
theorem gate_at (r : Fin 64) :
    Read.val_main_v2 (F := Ideal) I.Stop I.alpha I.beta (ix1 r) = Cert.Salt.gate I r := by
  rw [Read.val_main_v2_apply, Read.val_main_v1_apply, Read.val_main_v0_apply, Read.val_main_call0_v0_apply,
    Read.val_main_call0_cst_apply]
  rfl

/-- `U_top · diag gate`: the gate does not depend on the row, so the broadcast reads it at the rank index alone. -/
theorem scaledTop_at (n : Fin 4096) (r : Fin 64) :
    Read.val_main_v5 (F := Ideal) I.Utop I.Stop I.alpha I.beta (ix2 n r)
      = I.Utop (ix2 n r) * Cert.Salt.gate I r := by
  have e : Read.idx_main_v3 (Read.idx_main_v4 (ix2 n r)) = ix1 r :=
    funext fun a => Fin.ext (by match a with | ⟨0, _⟩ => rfl)
  rw [Read.val_main_v5_apply, Read.val_main_v4_apply, Read.val_main_v3_apply, e, gate_at I r]
  rfl

/-- The top correction: the sum over the rank index of `(U_top n r * gate r) * Vh_top r k`. -/
theorem top_at (n k : Fin 4096) :
    Read.val_main_v6 (F := Ideal) I.Utop I.Stop I.VhTop I.alpha I.beta (ix2 n k) = Cert.Salt.top I n k := by
  rw [Read.val_main_v6_apply]
  unfold Cert.Salt.top
  refine Finset.sum_congr rfl fun r _ => ?_
  have el : Read.lidx_main_v6 (ix2 n k) r = ix2 n r :=
    funext fun a => Fin.ext (by match a with | ⟨0, _⟩ => rfl | ⟨1, _⟩ => rfl)
  have er : Read.ridx_main_v6 (ix2 n k) r = ix2 r k :=
    funext fun a => Fin.ext (by match a with | ⟨0, _⟩ => rfl | ⟨1, _⟩ => rfl)
  rw [el, er, scaledTop_at I n r]

/-- `U_tail · diag S_tail`: the singular values are broadcast along the rows. -/
theorem scaledTail_at (n : Fin 4096) (r : Fin 64) :
    Read.val_main_v9 (F := Ideal) I.Utail I.Stail (ix2 n r) = I.Utail (ix2 n r) * I.Stail (ix1 r) := by
  have e : Read.idx_main_v7 (Read.idx_main_v8 (ix2 n r)) = ix1 r :=
    funext fun a => Fin.ext (by match a with | ⟨0, _⟩ => rfl)
  rw [Read.val_main_v9_apply, Read.val_main_v8_apply, Read.val_main_v7_apply, e]
  rfl

/-- `R · Vh_tail`: the sum over the inner rank index of `R r s * Vh_tail s k`. -/
theorem mixed_at (r : Fin 64) (k : Fin 4096) :
    Read.val_main_v10 (F := Ideal) I.VhTail I.R (ix2 r k) = Cert.Salt.mixed I r k := by
  rw [Read.val_main_v10_apply]
  unfold Cert.Salt.mixed
  refine Finset.sum_congr rfl fun s _ => ?_
  have el : Read.lidx_main_v10 (ix2 r k) s = ix2 r s :=
    funext fun a => Fin.ext (by match a with | ⟨0, _⟩ => rfl | ⟨1, _⟩ => rfl)
  have er : Read.ridx_main_v10 (ix2 r k) s = ix2 s k :=
    funext fun a => Fin.ext (by match a with | ⟨0, _⟩ => rfl | ⟨1, _⟩ => rfl)
  rw [el, er]

/-- The tail correction: the sum over the rank index of `(U_tail n r * S_tail r) * (R · Vh_tail) r k`. -/
theorem tail_at (n k : Fin 4096) :
    Read.val_main_v11 (F := Ideal) I.Utail I.Stail I.VhTail I.R (ix2 n k) = Cert.Salt.tail I n k := by
  rw [Read.val_main_v11_apply]
  unfold Cert.Salt.tail
  refine Finset.sum_congr rfl fun r _ => ?_
  have el : Read.lidx_main_v11 (ix2 n k) r = ix2 n r :=
    funext fun a => Fin.ext (by match a with | ⟨0, _⟩ => rfl | ⟨1, _⟩ => rfl)
  have er : Read.ridx_main_v11 (ix2 n k) r = ix2 r k :=
    funext fun a => Fin.ext (by match a with | ⟨0, _⟩ => rfl | ⟨1, _⟩ => rfl)
  rw [el, er, scaledTail_at I n r, mixed_at I r k]

/-- The adapted weight `(W + top) + tail`, entry by entry. -/
theorem weight_at (n k : Fin 4096) :
    Read.val_main_v13 (F := Ideal) I.W I.Utop I.Stop I.VhTop I.Utail I.Stail I.VhTail I.alpha I.beta I.R (ix2 n k)
      = Cert.Salt.weight I n k := by
  rw [Read.val_main_v13_apply, Read.val_main_v12_apply, top_at I n k, tail_at I n k]
  rfl

/-- The bias does not depend on the two leading coordinates: the broadcast reads it at the last one alone. -/
theorem bias_at (b : Fin 4) (s o : Fin 4096) :
    Read.val_main_v16 (F := Ideal) I.bias (ix3 b s o) = I.bias (ix1 o) := by
  have e : Read.idx_main_v15 (Read.idx_main_v16 (ix3 b s o)) = ix1 o :=
    funext fun a => Fin.ext (by match a with | ⟨0, _⟩ => rfl)
  rw [Read.val_main_v16_apply, Read.val_main_v15_apply, e]

/-- One entry of the output: the row of `x` against the row `o` of the adapted weight, plus the bias at `o`. -/
theorem out_at (b : Fin 4) (s o : Fin 4096) :
    Read.val_main_v17 (F := Ideal) I.x I.W I.bias I.Utop I.Stop I.VhTop I.Utail I.Stail I.VhTail I.alpha I.beta I.R
        (ix3 b s o)
      = Cert.Salt.out I b s o := by
  rw [Read.val_main_v17_apply, Read.val_main_v14_apply, bias_at I b s o, Ideal.addf_def]
  unfold Cert.Salt.out
  refine congrArg₂ (· + ·) (Finset.sum_congr rfl fun k _ => ?_) rfl
  have el : Read.lidx_main_v14 (ix3 b s o) k = ix3 b s k :=
    funext fun a => Fin.ext (by match a with | ⟨0, _⟩ => rfl | ⟨1, _⟩ => rfl | ⟨2, _⟩ => rfl)
  have er : Read.ridx_main_v14 (ix3 b s o) k = ix2 o k :=
    funext fun a => Fin.ext (by match a with | ⟨0, _⟩ => rfl | ⟨1, _⟩ => rfl)
  rw [el, er, weight_at I o k]

/-- The reference's last stage, as a function of the argument arrays, is the specification at those arrays. -/
theorem ref_is_result (x0 : (⟨S4x4096x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x64, .f32⟩ : BufTy).Contents (Elt Ideal))
    (x4 : (⟨S64, .f32⟩ : BufTy).Contents (Elt Ideal)) (x5 : (⟨S64x4096, .f32⟩ : BufTy).Contents (Elt Ideal))
    (x6 : (⟨S4096x64, .f32⟩ : BufTy).Contents (Elt Ideal)) (x7 : (⟨S64, .f32⟩ : BufTy).Contents (Elt Ideal))
    (x8 : (⟨S64x4096, .f32⟩ : BufTy).Contents (Elt Ideal)) (x9 x10 : (⟨S64, .f32⟩ : BufTy).Contents (Elt Ideal))
    (x11 : (⟨S64x64, .f32⟩ : BufTy).Contents (Elt Ideal)) :
    Read.val_main_v17 (F := Ideal) x0 x1 x2 x3 x4 x5 x6 x7 x8 x9 x10 x11
      = Cert.Salt.result ⟨x0, x1, x2, x3, x4, x5, x6, x7, x8, x9, x10, x11⟩ := by
  funext i
  obtain ⟨b, s, o, rfl⟩ : ∃ (b : Fin 4) (s o : Fin 4096), i = ix3 b s o := ⟨i 0, i 1, i 2, eq_ix3 i⟩
  exact (out_at ⟨x0, x1, x2, x3, x4, x5, x6, x7, x8, x9, x10, x11⟩ b s o).trans
    (Cert.Salt.result_ix3 _ b s o).symm

end Cert.ReferenceIdeal.RefValue

end
-- ==== Proof.Pieces.lean ====
/-
  What one run of the kernel body leaves in its accumulator and in its output block, as pure functions of the blocks it
  loads: at every grid point the accumulator ends at `acc + x · (W + top + tail)ᵀ` over the point's block of 512
  contracted indices — `acc` the zero block at the first point of a run of eight, what the point before left at the
  others — and at the last point of the run the output block is that sum plus the bias.
-/
import proofs.«108158_j38568806318480_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- One accumulation step as a function of the point's blocks and of the accumulator's contents before it. -/
abbrev step (x0 : Vec F S2048x512 .bf16) (x1 : Vec F S512x512 .bf16) (x2 : Vec F S512x64 .bf16) (x3 : Vec F S64x512 .bf16) (x4 : Vec F S512x64 .bf16) (x5 : Vec F S64x512 .bf16) (x6 : Vec F S64 .f32) (x7 : Vec F S64 .f32) (x8 : Vec F S64 .f32) (x9 : Vec F S64 .f32) (x10 : Vec F S64x64 .bf16) (x11 : Vec F S512 .f32) (acc : Vec F S2048x512 .f32) : Vec F S2048x512 .f32 :=
  k0_pay1 (k0_pay4 x6 x7 x8 x2 x3) (k0_pay5 x4 x9 x10 x5) x1 acc x0

/-- The first point of a run: the accumulator is zeroed, read back, and ends at one step over the zero block. -/
theorem acc_A (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S512x64 .bf16) (harg5 : arg5.IsWhole) (arg6 : Memref sig .tc .vmem S64x512 .bf16) (harg6 : arg6.IsWhole) (arg7 : Memref sig .tc .vmem S512x64 .bf16) (harg7 : arg7.IsWhole) (arg8 : Memref sig .tc .vmem S64x512 .bf16) (harg8 : arg8.IsWhole) (arg9 : Memref sig .tc .vmem S64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64x64 .bf16) (harg13 : arg13.IsWhole) (arg14 : Memref sig .tc .vmem S512 .f32) (harg14 : arg14.IsWhole) (arg15 : Memref sig .tc .vmem S2048x512 .f32) (harg15 : arg15.IsWhole) (arg16 : Memref sig .tc .vmem S2048x512 .f32) (harg16 : arg16.IsWhole) (hc0 : cond0_0 i) (hc1 : ¬cond0_1 i)
    (x0 : Vec F S2048x512 .bf16) (x1 : Vec F S512x512 .bf16) (x2 : Vec F S512x64 .bf16) (x3 : Vec F S64x512 .bf16) (x4 : Vec F S512x64 .bf16) (x5 : Vec F S64x512 .bf16) (x6 : Vec F S64 .f32) (x7 : Vec F S64 .f32) (x8 : Vec F S64 .f32) (x9 : Vec F S64 .f32) (x10 : Vec F S64x64 .bf16) (x11 : Vec F S512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = step x0 x1 x2 x3 x4 x5 x6 x7 x8 x9 x10 x11 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S2048x512) hz2]

  simp only [View.readCov_unit_zero (S := S2048x512) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S2048x512) hz2, View.ld_unit_zero (S := S512x512) hz2, View.ld_unit_zero (S := S512x64) hz2, View.ld_unit_zero (S := S64x512) hz2, View.ld_unit_zero (S := S64x64) hz2, View.ld_unit_zero (S := S64) hz1, View.ld_unit_zero (S := S512) hz1]

/-- A middle point of a run: the accumulator, holding `xs0`, ends at one step over it. -/
theorem acc_B (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S512x64 .bf16) (harg5 : arg5.IsWhole) (arg6 : Memref sig .tc .vmem S64x512 .bf16) (harg6 : arg6.IsWhole) (arg7 : Memref sig .tc .vmem S512x64 .bf16) (harg7 : arg7.IsWhole) (arg8 : Memref sig .tc .vmem S64x512 .bf16) (harg8 : arg8.IsWhole) (arg9 : Memref sig .tc .vmem S64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64x64 .bf16) (harg13 : arg13.IsWhole) (arg14 : Memref sig .tc .vmem S512 .f32) (harg14 : arg14.IsWhole) (arg15 : Memref sig .tc .vmem S2048x512 .f32) (harg15 : arg15.IsWhole) (arg16 : Memref sig .tc .vmem S2048x512 .f32) (harg16 : arg16.IsWhole) (hc0 : ¬cond0_0 i) (hc1 : ¬cond0_1 i)
    (x0 : Vec F S2048x512 .bf16) (x1 : Vec F S512x512 .bf16) (x2 : Vec F S512x64 .bf16) (x3 : Vec F S64x512 .bf16) (x4 : Vec F S512x64 .bf16) (x5 : Vec F S64x512 .bf16) (x6 : Vec F S64 .f32) (x7 : Vec F S64 .f32) (x8 : Vec F S64 .f32) (x9 : Vec F S64 .f32) (x10 : Vec F S64x64 .bf16) (x11 : Vec F S512 .f32) (xs0 : Vec F S2048x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = step x0 x1 x2 x3 x4 x5 x6 x7 x8 x9 x10 x11 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S2048x512) hz2, View.ld_unit_zero (S := S512x512) hz2, View.ld_unit_zero (S := S512x64) hz2, View.ld_unit_zero (S := S64x512) hz2, View.ld_unit_zero (S := S64x64) hz2, View.ld_unit_zero (S := S64) hz1, View.ld_unit_zero (S := S512) hz1]

/-- The last point of a run: the accumulator likewise, -/
theorem acc_C (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S512x64 .bf16) (harg5 : arg5.IsWhole) (arg6 : Memref sig .tc .vmem S64x512 .bf16) (harg6 : arg6.IsWhole) (arg7 : Memref sig .tc .vmem S512x64 .bf16) (harg7 : arg7.IsWhole) (arg8 : Memref sig .tc .vmem S64x512 .bf16) (harg8 : arg8.IsWhole) (arg9 : Memref sig .tc .vmem S64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64x64 .bf16) (harg13 : arg13.IsWhole) (arg14 : Memref sig .tc .vmem S512 .f32) (harg14 : arg14.IsWhole) (arg15 : Memref sig .tc .vmem S2048x512 .f32) (harg15 : arg15.IsWhole) (arg16 : Memref sig .tc .vmem S2048x512 .f32) (harg16 : arg16.IsWhole) (hc0 : ¬cond0_0 i) (hc1 : cond0_1 i)
    (x0 : Vec F S2048x512 .bf16) (x1 : Vec F S512x512 .bf16) (x2 : Vec F S512x64 .bf16) (x3 : Vec F S64x512 .bf16) (x4 : Vec F S512x64 .bf16) (x5 : Vec F S64x512 .bf16) (x6 : Vec F S64 .f32) (x7 : Vec F S64 .f32) (x8 : Vec F S64 .f32) (x9 : Vec F S64 .f32) (x10 : Vec F S64x64 .bf16) (x11 : Vec F S512 .f32) (xs0 : Vec F S2048x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = step x0 x1 x2 x3 x4 x5 x6 x7 x8 x9 x10 x11 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S2048x512) hz2, View.ld_unit_zero (S := S512x512) hz2, View.ld_unit_zero (S := S512x64) hz2, View.ld_unit_zero (S := S64x512) hz2, View.ld_unit_zero (S := S64x64) hz2, View.ld_unit_zero (S := S64) hz1, View.ld_unit_zero (S := S512) hz1]

/-- and the output block is the accumulator's new contents, read back, plus the bias block. -/
theorem out_C (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S512x64 .bf16) (harg5 : arg5.IsWhole) (arg6 : Memref sig .tc .vmem S64x512 .bf16) (harg6 : arg6.IsWhole) (arg7 : Memref sig .tc .vmem S512x64 .bf16) (harg7 : arg7.IsWhole) (arg8 : Memref sig .tc .vmem S64x512 .bf16) (harg8 : arg8.IsWhole) (arg9 : Memref sig .tc .vmem S64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64x64 .bf16) (harg13 : arg13.IsWhole) (arg14 : Memref sig .tc .vmem S512 .f32) (harg14 : arg14.IsWhole) (arg15 : Memref sig .tc .vmem S2048x512 .f32) (harg15 : arg15.IsWhole) (arg16 : Memref sig .tc .vmem S2048x512 .f32) (harg16 : arg16.IsWhole) (hc0 : ¬cond0_0 i) (hc1 : cond0_1 i)
    (x0 : Vec F S2048x512 .bf16) (x1 : Vec F S512x512 .bf16) (x2 : Vec F S512x64 .bf16) (x3 : Vec F S64x512 .bf16) (x4 : Vec F S512x64 .bf16) (x5 : Vec F S64x512 .bf16) (x6 : Vec F S64 .f32) (x7 : Vec F S64 .f32) (x8 : Vec F S64 .f32) (x9 : Vec F S64 .f32) (x10 : Vec F S64x64 .bf16) (x11 : Vec F S512 .f32) (xs0 : Vec F S2048x512 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = k0_pay2 (step x0 x1 x2 x3 x4 x5 x6 x7 x8 x9 x10 x11 xs0) x11 := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_C
  dsimp only
  sl_unfold_words
  rw [View.canon_unit_zero hz2]

  simp only [View.readCov_unit_zero (S := S2048x512) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S2048x512) hz2, View.ld_unit_zero (S := S512x512) hz2, View.ld_unit_zero (S := S512x64) hz2, View.ld_unit_zero (S := S64x512) hz2, View.ld_unit_zero (S := S64x64) hz2, View.ld_unit_zero (S := S64) hz1, View.ld_unit_zero (S := S512) hz1]

end Cert.KernelIdeal.Pieces

end
-- ==== Proof.Cases.lean ====
/-
  The accumulator and the output block after each grid point, by the point's place in its run of eight: at the first
  point of a run the accumulator is one step over the zero block; at every later point one step over what the point
  before left; and at the last point of the run the output block is the accumulator's new contents plus the bias block.
-/
import proofs.«108158_j38568806318480_1_alg».proof.Proof.Pieces

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]
variable (m : (ℓ : Loc nD τ sig) → Buf (Elt F) ℓ)

/-- One accumulation step at point `t`: over the blocks the point's windows hold, from the contents `acc`. -/
abbrev stepAt (c : Dev nD) (t : Fin cfg0.N) (acc : Vec F S2048x512 .f32) : Vec F S2048x512 .f32 :=
  Pieces.step (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc

/-- The point before `t` is a point. -/
theorem pred_lt (t : Fin cfg0.N) : t.val - 1 < cfg0.N := Nat.lt_of_le_of_lt (Nat.sub_le _ _) t.isLt

/-- After the first point of a run the accumulator holds one step over the zero block. -/
theorem scratch_first (c : Dev nD) (t : Fin cfg0.N) (h0 : t.val % 8 = 0) :
    (outsAt0 m c t.val t.isLt).2 = stepAt m c t (k0_pay3 (F := F)) := by
  rw [outsAt0_A m c t h0 (by omega)]
  dsimp only
  exact Pieces.acc_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- After any later point it holds one step over what the point before left. -/
theorem scratch_next (c : Dev nD) (t : Fin cfg0.N) (h0 : ¬t.val % 8 = 0) :
    (outsAt0 m c t.val t.isLt).2 = stepAt m c t (outsAt0 m c (t.val - 1) (pred_lt t)).2 := by
  by_cases h1 : t.val % 8 = 7
  · rw [outsAt0_C m c t h0 h1]
    dsimp only
    exact Pieces.acc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (pred_lt t)).2
  · rw [outsAt0_B m c t h0 h1]
    dsimp only
    exact Pieces.acc_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (pred_lt t)).2

/-- After the last point of a run the output block holds that step plus the bias block. -/
theorem out_last (c : Dev nD) (t : Fin cfg0.N) (h1 : t.val % 8 = 7) :
    (outsAt0 m c t.val t.isLt).1
      = k0_pay2 (stepAt m c t (outsAt0 m c (t.val - 1) (pred_lt t)).2) (iblk m c 11 t) := by
  have h0 : ¬t.val % 8 = 0 := by omega
  rw [outsAt0_C m c t h0 h1]
  dsimp only
  exact Pieces.out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (pred_lt t)).2

end Cert.KernelIdeal.Cases

end
-- ==== Proof.Payload.lean ====
/-
  The kernel body's arithmetic, read at one entry, over the extended reals: the two rank-64 corrections of a weight
  block, one step of the accumulation `acc + x · (W + top + tail)ᵀ` over a block of 512 contracted indices, the
  bias added at the last step, and the zero block the accumulator starts from.
-/
import proofs.«108158_j38568806318480_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The three contractions read at an entry

Each of the kernel's three products contracts one axis of each operand. Its contraction index is one coordinate `k`;
the left operand is read at (row, `k`), and the right operand at (`k`, column), or, for the product with a transposed
weight block, at (column, `k`). -/

/-- Rank-64 outer product, left operand: the row is the entry's row. -/
theorem outer_lhs_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
/-- Rank-64 outer product, left operand: the column is the contracted coordinate. -/
theorem outer_lhs_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- Rank-64 outer product, right operand: the row is the contracted coordinate. -/
theorem outer_rhs_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- Rank-64 outer product, right operand: the column is the entry's column. -/
theorem outer_rhs_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The product of a [512,64] block with a [64,512] block into a zero accumulator, at an entry: the sum over the 64
    inner indices. -/
theorem outer_apply (l : FVec Ideal S512x64 .bf16) (r : FVec Ideal S64x512 .bf16) (n kk : Fin 512) :
    matmul dot_S512x64_S64x512_S512x512_1_0_0_1_n_n none l r (constant (F := Ideal) S512x512 .f32 0x00000000#32) (ix2 n kk)
      = ∑ k : Fin 64, l (ix2 n k) * r (ix2 k kk) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 n kk) ((ValueIdx.contrEquiv1 dot_S512x64_S64x512_S512x512_1_0_0_1_n_n 64 rfl rfl).symm k) = ix2 n k := funext fun a => Fin.ext (by
    match a with
    | ⟨0, _⟩ => exact outer_lhs_0 _ _
    | ⟨1, _⟩ => exact (outer_lhs_1 _ _).trans hk)
  have er : dot_S512x64_S64x512_S512x512_1_0_0_1_n_n.rhsIdx (ix2 n kk) ((ValueIdx.contrEquiv1 dot_S512x64_S64x512_S512x512_1_0_0_1_n_n 64 rfl rfl).symm k) = ix2 k kk := funext fun a => Fin.ext (by
    match a with
    | ⟨0, _⟩ => exact (outer_rhs_0 _ _).trans hk
    | ⟨1, _⟩ => exact outer_rhs_1 _ _)
  rw [el, er]

/-- Rotation times the tail's right factor, left operand: the row is the entry's row. -/
theorem rot_lhs_0 (i : S64x512.Idx) (q : dot_S64x64_S64x512_S64x512_1_0_0_1_n_n.contr.Idx) :
    (dot_S64x64_S64x512_S64x512_1_0_0_1_n_n.lhsIdx i q 0).val = (i 0).val := by
  unfold DotDims.lhsIdx
  rw [dif_neg (show ¬(0 : Fin S64x64.rank) ∈ dot_S64x64_S64x512_S64x512_1_0_0_1_n_n.lhsBatch by decide), dif_pos (show (0 : Fin S64x64.rank) ∈ dot_S64x64_S64x512_S64x512_1_0_0_1_n_n.lhsNonContracting by decide)]
  rfl
/-- Rotation times the tail's right factor, left operand: the column is the contracted coordinate. -/
theorem rot_lhs_1 (i : S64x512.Idx) (q : dot_S64x64_S64x512_S64x512_1_0_0_1_n_n.contr.Idx) :
    (dot_S64x64_S64x512_S64x512_1_0_0_1_n_n.lhsIdx i q 1).val = (q ⟨0, by decide⟩).val :=
  dot_S64x64_S64x512_S64x512_1_0_0_1_n_n.lhsIdx_val_of_single rfl i q
/-- Rotation times the tail's right factor, right operand: the row is the contracted coordinate. -/
theorem rot_rhs_0 (i : S64x512.Idx) (q : dot_S64x64_S64x512_S64x512_1_0_0_1_n_n.contr.Idx) :
    (dot_S64x64_S64x512_S64x512_1_0_0_1_n_n.rhsIdx i q 0).val = (q ⟨0, by decide⟩).val :=
  dot_S64x64_S64x512_S64x512_1_0_0_1_n_n.rhsIdx_val_of_single rfl i q
/-- Rotation times the tail's right factor, right operand: the column is the entry's column. -/
theorem rot_rhs_1 (i : S64x512.Idx) (q : dot_S64x64_S64x512_S64x512_1_0_0_1_n_n.contr.Idx) :
    (dot_S64x64_S64x512_S64x512_1_0_0_1_n_n.rhsIdx i q 1).val = (i 1).val := by
  unfold DotDims.rhsIdx
  rw [dif_neg (show ¬(1 : Fin S64x512.rank) ∈ dot_S64x64_S64x512_S64x512_1_0_0_1_n_n.rhsBatch by decide), dif_pos (show (1 : Fin S64x512.rank) ∈ dot_S64x64_S64x512_S64x512_1_0_0_1_n_n.rhsNonContracting by decide)]
  rfl

/-- The product of a [64,64] block with a [64,512] block into a zero accumulator, at an entry: the sum over the 64
    inner indices. -/
theorem rot_apply (l : FVec Ideal S64x64 .bf16) (r : FVec Ideal S64x512 .bf16) (rr : Fin 64) (kk : Fin 512) :
    matmul dot_S64x64_S64x512_S64x512_1_0_0_1_n_n none l r (constant (F := Ideal) S64x512 .f32 0x00000000#32) (ix2 rr kk)
      = ∑ s : Fin 64, l (ix2 rr s) * r (ix2 s kk) := by
  simp only [matmul]
  rw [Ideal.matmul_constant_zero_apply, ← Equiv.sum_comp (ValueIdx.contrEquiv1 dot_S64x64_S64x512_S64x512_1_0_0_1_n_n 64 rfl rfl).symm]
  refine Finset.sum_congr rfl fun k _ => ?_
  have hk := ValueIdx.contrEquiv1_symm_val dot_S64x64_S64x512_S64x512_1_0_0_1_n_n 64 rfl rfl k
  have el : dot_S64x64_S64x512_S64x512_1_0_0_1_n_n.lhsIdx (ix2 rr kk) ((ValueIdx.contrEquiv1 dot_S64x64_S64x512_S64x512_1_0_0_1_n_n 64 rfl rfl).symm k) = ix2 rr k := funext fun a => Fin.ext (by
    match a with
    | ⟨0, _⟩ => exact rot_lhs_0 _ _
    | ⟨1, _⟩ => exact (rot_lhs_1 _ _).trans hk)
  have er : dot_S64x64_S64x512_S64x512_1_0_0_1_n_n.rhsIdx (ix2 rr kk) ((ValueIdx.contrEquiv1 dot_S64x64_S64x512_S64x512_1_0_0_1_n_n 64 rfl rfl).symm k) = ix2 k kk := funext fun a => Fin.ext (by
    match a with
    | ⟨0, _⟩ => exact (rot_rhs_0 _ _).trans hk
    | ⟨1, _⟩ => exact rot_rhs_1 _ _)
  rw [el, er]

/-- Activations times the transposed weight block, left operand: the row is the entry's row. -/
theorem xwt_lhs_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- Activations times the transposed weight block, left operand: the column is the contracted coordinate. -/
theorem xwt_lhs_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
/-- Activations times the transposed weight block, right operand: the row is the entry's column. -/
theorem xwt_rhs_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- Activations times the transposed weight block, right operand: the column is the contracted coordinate. -/
theorem xwt_rhs_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product of a [2048,512] block with the transpose of a [512,512] block into a zero accumulator, at an entry: the
    sum over the 512 contracted indices, the right operand read at (column, contracted index). -/
theorem xwt_apply (l : FVec Ideal S2048x512 .bf16) (r : FVec Ideal S512x512 .bf16) (p : Fin 2048) (n : Fin 512) :
    matmul dot_S2048x512_S512x512_S2048x512_1_1_0_0_n_n none l r (constant (F := Ideal) S2048x512 .f32 0x00000000#32) (ix2 p n)
      = ∑ kk : Fin 512, l (ix2 p kk) * r (ix2 n kk) := by
  simp only [matmul]
  rw [Ideal.matmul_constant_zero_apply, ← Equiv.sum_comp (ValueIdx.contrEquiv1 dot_S2048x512_S512x512_S2048x512_1_1_0_0_n_n 512 rfl rfl).symm]
  refine Finset.sum_congr rfl fun k _ => ?_
  have hk := ValueIdx.contrEquiv1_symm_val dot_S2048x512_S512x512_S2048x512_1_1_0_0_n_n 512 rfl rfl k
  have el : dot_S2048x512_S512x512_S2048x512_1_1_0_0_n_n.lhsIdx (ix2 p n) ((ValueIdx.contrEquiv1 dot_S2048x512_S512x512_S2048x512_1_1_0_0_n_n 512 rfl rfl).symm k) = ix2 p k := funext fun a => Fin.ext (by
    match a with
    | ⟨0, _⟩ => exact xwt_lhs_0 _ _
    | ⟨1, _⟩ => exact (xwt_lhs_1 _ _).trans hk)
  have er : dot_S2048x512_S512x512_S2048x512_1_1_0_0_n_n.rhsIdx (ix2 p n) ((ValueIdx.contrEquiv1 dot_S2048x512_S512x512_S2048x512_1_1_0_0_n_n 512 rfl rfl).symm k) = ix2 n k := funext fun a => Fin.ext (by
    match a with
    | ⟨0, _⟩ => exact xwt_rhs_0 _ _
    | ⟨1, _⟩ => exact (xwt_rhs_1 _ _).trans hk)
  rw [el, er]

/-- A vector of 64 entries laid along the rows of a [512,64] block: every row reads the vector. -/
theorem row64_apply (v : FVec Ideal S64 .f32) (h₁ : S64.ShapeCasts S1x64) (h₂ : S1x64.Broadcasts S512x64)
    (n : Fin 512) (r : Fin 64) :
    broadcastTo S512x64 (shapeCast S1x64 v h₁) h₂ (ix2 n r) = v (ix1 r) :=
  (broadcastTo_1b_ab_apply _ h₂ n r).trans (shapeCast_a_1a_apply v h₁ 0 r)

/-- A vector of 512 entries laid along the rows of a [2048,512] block: every row reads the vector. -/
theorem row512_apply (v : FVec Ideal S512 .f32) (h₁ : S512.ShapeCasts S1x512) (h₂ : S1x512.Broadcasts S2048x512)
    (p : Fin 2048) (n : Fin 512) :
    broadcastTo S2048x512 (shapeCast S1x512 v h₁) h₂ (ix2 p n) = v (ix1 n) :=
  (broadcastTo_1b_ab_apply _ h₂ p n).trans (shapeCast_a_1a_apply v h₁ 0 n)

/-! ## The payloads -/

/-- The block the accumulator is reset to holds zero everywhere. -/
theorem pay3_apply (p : Fin 2048) (n : Fin 512) : k0_pay3 (F := Ideal) (ix2 p n) = 0 := by
  unfold k0_pay3
  rw [shapeCast_self]
  exact Ideal.ofBits_zero_f32

/-- The top correction of a weight block: `Σ_r (U_top n r * max (S_top r * alpha r + beta r) 0) * Vh_top r kk`. -/
theorem pay4_apply (v3 v4 v6 : FVec Ideal S64 .f32) (v10 : FVec Ideal S512x64 .bf16) (v31 : FVec Ideal S64x512 .bf16)
    (n kk : Fin 512) :
    k0_pay4 (F := Ideal) v3 v4 v6 v10 v31 (ix2 n kk)
      = ∑ r : Fin 64, (v10 (ix2 n r) * max (v3 (ix1 r) * v4 (ix1 r) + v6 (ix1 r)) (Ideal.ofBits .f32 0x00000000#32))
          * v31 (ix2 r kk) := by
  unfold k0_pay4
  refine (outer_apply _ _ n kk).trans ?_
  refine Finset.sum_congr rfl fun r _ => ?_
  rw [shapeCast_self v10, shapeCast_self v31]
  show (v10 (ix2 n r) * broadcastTo S512x64 (shapeCast S1x64 _ _) _ (ix2 n r)) * v31 (ix2 r kk) = _
  rw [row64_apply]
  rfl

/-- The tail correction of a weight block: `Σ_r (U_tail n r * S_tail r) * Σ_s R r s * Vh_tail s kk`. -/
theorem pay5_apply (v17 : FVec Ideal S512x64 .bf16) (v20 : FVec Ideal S64 .f32) (v25 : FVec Ideal S64x64 .bf16)
    (v27 : FVec Ideal S64x512 .bf16) (n kk : Fin 512) :
    k0_pay5 (F := Ideal) v17 v20 v25 v27 (ix2 n kk)
      = ∑ r : Fin 64, (v17 (ix2 n r) * v20 (ix1 r)) * ∑ s : Fin 64, v25 (ix2 r s) * v27 (ix2 s kk) := by
  unfold k0_pay5
  refine (outer_apply _ _ n kk).trans ?_
  refine Finset.sum_congr rfl fun r _ => ?_
  rw [shapeCast_self v17, shapeCast_self v25, shapeCast_self v27]
  show (v17 (ix2 n r) * broadcastTo S512x64 (shapeCast S1x64 v20 _) _ (ix2 n r))
      * matmul dot_S64x64_S64x512_S64x512_1_0_0_1_n_n none v25 v27 (constant (F := Ideal) S64x512 .f32 0x00000000#32) (ix2 r kk) = _
  rw [row64_apply, rot_apply]

/-- One accumulation step: the accumulator plus the block product of `x` with the adapted weight block, contracted over
    the block's 512 indices. -/
theorem pay1_apply (v33 v34 : FVec Ideal S512x512 .f32) (v35 : FVec Ideal S512x512 .bf16) (v41 : FVec Ideal S2048x512 .f32)
    (v42 : FVec Ideal S2048x512 .bf16) (p : Fin 2048) (n : Fin 512) :
    k0_pay1 (F := Ideal) v33 v34 v35 v41 v42 (ix2 p n)
      = v41 (ix2 p n) + ∑ kk : Fin 512, v42 (ix2 p kk) * ((v35 (ix2 n kk) + v33 (ix2 n kk)) + v34 (ix2 n kk)) := by
  unfold k0_pay1
  rw [shapeCast_self, shapeCast_self v35, shapeCast_self v42]
  refine congrArg (v41 (ix2 p n) + ·) ?_
  exact xwt_apply _ _ p n

/-- The last step adds the bias along the rows. -/
theorem pay2_apply (v52 : FVec Ideal S2048x512 .f32) (v53 : FVec Ideal S512 .f32) (p : Fin 2048) (n : Fin 512) :
    k0_pay2 (F := Ideal) v52 v53 (ix2 p n) = v52 (ix2 p n) + v53 (ix1 n) := by
  unfold k0_pay2
  exact congrArg (v52 (ix2 p n) + ·) (row512_apply v53 _ _ p n)

end Cert.KernelIdeal.Pay

end
-- ==== Proof.Blocks.lean ====
/-
  The blocks the kernel body loads at a grid point, read at an entry, as entries of the argument arrays. The grid is
  8 × 8 × 8, walked row-major: point `t` is row block `t / 64` of the 16384 flattened rows of `x`, column block
  `t / 8 % 8` of the 4096 outputs, and block `t % 8` of the 4096 contracted indices. A block's entry sits in its array,
  on each axis, at block index × block size + the entry's coordinate. The arrays the region finds are the arguments
  themselves (the conversions to a narrower float format before the region are the identity on the extended reals), `x`
  with its two leading axes merged.
-/
import proofs.«108158_j38568806318480_1_alg».proof.Proof.Gen.KernelIdeal.Frame
import proofs.«108158_j38568806318480_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The twelve argument arrays as core `c` holds them at launch. -/
def inputs (c : Dev nD) : Cert.Salt.Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11)⟩

theorem N512 : cfg0.N = 512 := N_0

/-- The flattened row of `x` under row `p` of the block at point `t`. -/
def rowOf (t : Fin cfg0.N) (p : Fin 2048) : Fin 16384 :=
  ⟨2048 * (t.val / 64) + p.val, by have := t.isLt; have := N512; have := p.isLt; omega⟩
/-- The output column under column `n` of the block at point `t`. -/
def colOf (t : Fin cfg0.N) (n : Fin 512) : Fin 4096 :=
  ⟨512 * (t.val / 8 % 8) + n.val, by have := n.isLt; omega⟩
/-- The contracted index under index `kk` of the block at point `t`. -/
def kOf (t : Fin cfg0.N) (kk : Fin 512) : Fin 4096 :=
  ⟨512 * (t.val % 8) + kk.val, by have := kk.isLt; omega⟩

/-- `x` with its two leading axes merged: flattened row `r` is row `r % 4096` of batch `r / 4096`. -/
def x2 (I : Cert.Salt.Inputs) (r : Fin 16384) (k : Fin 4096) : EReal :=
  I.x (ix3 ⟨r.val / 4096, by have := r.isLt; omega⟩ ⟨r.val % 4096, Nat.mod_lt _ (by decide)⟩ k)

/-! ## The block index maps, decided over the grid -/

theorem idx_facts : ∀ t : Fin cfg0.N,
    win0_0.index t 0 = t.val / 64 ∧ win0_0.index t 1 = t.val % 8
    ∧ win0_1.index t 0 = t.val / 8 % 8 ∧ win0_1.index t 1 = t.val % 8
    ∧ win0_2.index t 0 = t.val / 8 % 8 ∧ win0_2.index t 1 = 0
    ∧ win0_3.index t 0 = 0 ∧ win0_3.index t 1 = t.val % 8
    ∧ win0_4.index t 0 = t.val / 8 % 8 ∧ win0_4.index t 1 = 0
    ∧ win0_5.index t 0 = 0 ∧ win0_5.index t 1 = t.val % 8
    ∧ win0_6.index t 0 = 0 ∧ win0_7.index t 0 = 0 ∧ win0_8.index t 0 = 0 ∧ win0_9.index t 0 = 0
    ∧ win0_10.index t 0 = 0 ∧ win0_10.index t 1 = 0
    ∧ win0_11.index t 0 = t.val / 8 % 8
    ∧ win0_12.index t 0 = t.val / 64 ∧ win0_12.index t 1 = t.val / 8 % 8 :=
  (by decide +kernel : ∀ t : Fin grid0.N, _)

/-! ## A block's entry in its array -/

/-- `x`'s block: rows of the point's row block, the point's block of contracted indices. -/
theorem xblk_at (c : Dev nD) (t : Fin cfg0.N) (a : Fin 2048) (b : Fin 512) :
    (iblk m c 0 t : Vec Ideal S2048x512 .bf16) (ix2 a b) = (V m c main_v1 : S16384x4096.Idx → EReal) (ix2 (rowOf t a) (kOf t b)) := by
  unfold iblk
  rw [View.read_apply]
  show V m c main_v1 (((cfg0.win 0).blk t).view.emb (ix2 a b)) = _
  congr 1
  funext d
  apply Fin.ext
  have hi := idx_facts t
  match d with
  | ⟨0, _⟩ => show win0_0.index t 0 * 2048 + 1 * a.val = 2048 * (t.val / 64) + a.val; omega
  | ⟨1, _⟩ => show win0_0.index t 1 * 512 + 1 * b.val = 512 * (t.val % 8) + b.val; omega

/-- `W`'s block: the point's output columns by its block of contracted indices. -/
theorem wblk_at (c : Dev nD) (t : Fin cfg0.N) (a : Fin 512) (b : Fin 512) :
    (iblk m c 1 t : Vec Ideal S512x512 .bf16) (ix2 a b) = (V m c main_v2 : S4096x4096.Idx → EReal) (ix2 (colOf t a) (kOf t b)) := by
  unfold iblk
  rw [View.read_apply]
  show V m c main_v2 (((cfg0.win 1).blk t).view.emb (ix2 a b)) = _
  congr 1
  funext d
  apply Fin.ext
  have hi := idx_facts t
  match d with
  | ⟨0, _⟩ => show win0_1.index t 0 * 512 + 1 * a.val = 512 * (t.val / 8 % 8) + a.val; omega
  | ⟨1, _⟩ => show win0_1.index t 1 * 512 + 1 * b.val = 512 * (t.val % 8) + b.val; omega

/-- `U_top`'s block: the point's output columns, all 64 ranks. -/
theorem utop_at (c : Dev nD) (t : Fin cfg0.N) (a : Fin 512) (b : Fin 64) :
    (iblk m c 2 t : Vec Ideal S512x64 .bf16) (ix2 a b) = (V m c main_v3 : S4096x64.Idx → EReal) (ix2 (colOf t a) b) := by
  unfold iblk
  rw [View.read_apply]
  show V m c main_v3 (((cfg0.win 2).blk t).view.emb (ix2 a b)) = _
  congr 1
  funext d
  apply Fin.ext
  have hi := idx_facts t
  match d with
  | ⟨0, _⟩ => show win0_2.index t 0 * 512 + 1 * a.val = 512 * (t.val / 8 % 8) + a.val; omega
  | ⟨1, _⟩ => show win0_2.index t 1 * 64 + 1 * b.val = b.val; omega

/-- `Vh_top`'s block: all 64 ranks by the point's block of contracted indices. -/
theorem vhtop_at (c : Dev nD) (t : Fin cfg0.N) (a : Fin 64) (b : Fin 512) :
    (iblk m c 3 t : Vec Ideal S64x512 .bf16) (ix2 a b) = (V m c main_v4 : S64x4096.Idx → EReal) (ix2 a (kOf t b)) := by
  unfold iblk
  rw [View.read_apply]
  show V m c main_v4 (((cfg0.win 3).blk t).view.emb (ix2 a b)) = _
  congr 1
  funext d
  apply Fin.ext
  have hi := idx_facts t
  match d with
  | ⟨0, _⟩ => show win0_3.index t 0 * 64 + 1 * a.val = a.val; omega
  | ⟨1, _⟩ => show win0_3.index t 1 * 512 + 1 * b.val = 512 * (t.val % 8) + b.val; omega

/-- `U_tail`'s block. -/
theorem utail_at (c : Dev nD) (t : Fin cfg0.N) (a : Fin 512) (b : Fin 64) :
    (iblk m c 4 t : Vec Ideal S512x64 .bf16) (ix2 a b) = (V m c main_v5 : S4096x64.Idx → EReal) (ix2 (colOf t a) b) := by
  unfold iblk
  rw [View.read_apply]
  show V m c main_v5 (((cfg0.win 4).blk t).view.emb (ix2 a b)) = _
  congr 1
  funext d
  apply Fin.ext
  have hi := idx_facts t
  match d with
  | ⟨0, _⟩ => show win0_4.index t 0 * 512 + 1 * a.val = 512 * (t.val / 8 % 8) + a.val; omega
  | ⟨1, _⟩ => show win0_4.index t 1 * 64 + 1 * b.val = b.val; omega

/-- `Vh_tail`'s block. -/
theorem vhtail_at (c : Dev nD) (t : Fin cfg0.N) (a : Fin 64) (b : Fin 512) :
    (iblk m c 5 t : Vec Ideal S64x512 .bf16) (ix2 a b) = (V m c main_v6 : S64x4096.Idx → EReal) (ix2 a (kOf t b)) := by
  unfold iblk
  rw [View.read_apply]
  show V m c main_v6 (((cfg0.win 5).blk t).view.emb (ix2 a b)) = _
  congr 1
  funext d
  apply Fin.ext
  have hi := idx_facts t
  match d with
  | ⟨0, _⟩ => show win0_5.index t 0 * 64 + 1 * a.val = a.val; omega
  | ⟨1, _⟩ => show win0_5.index t 1 * 512 + 1 * b.val = 512 * (t.val % 8) + b.val; omega

/-- `R` whole. -/
theorem r_at (c : Dev nD) (t : Fin cfg0.N) (a : Fin 64) (b : Fin 64) :
    (iblk m c 10 t : Vec Ideal S64x64 .bf16) (ix2 a b) = (V m c main_v7 : S64x64.Idx → EReal) (ix2 a b) := by
  unfold iblk
  rw [View.read_apply]
  show V m c main_v7 (((cfg0.win 10).blk t).view.emb (ix2 a b)) = _
  congr 1
  funext d
  apply Fin.ext
  have hi := idx_facts t
  match d with
  | ⟨0, _⟩ => show win0_10.index t 0 * 64 + 1 * a.val = a.val; omega
  | ⟨1, _⟩ => show win0_10.index t 1 * 64 + 1 * b.val = b.val; omega

/-- `S_top` whole. -/
theorem stop_at (c : Dev nD) (t : Fin cfg0.N) (a : Fin 64) :
    (iblk m c 6 t : Vec Ideal S64 .f32) (ix1 a) = (V m c main_arg4 : S64.Idx → EReal) (ix1 a) := by
  unfold iblk
  rw [View.read_apply]
  show V m c main_arg4 (((cfg0.win 6).blk t).view.emb (ix1 a)) = _
  congr 1
  funext d
  apply Fin.ext
  have hi := idx_facts t
  match d with
  | ⟨0, _⟩ => show win0_6.index t 0 * 64 + 1 * a.val = a.val; omega

/-- `alpha` whole. -/
theorem alpha_at (c : Dev nD) (t : Fin cfg0.N) (a : Fin 64) :
    (iblk m c 7 t : Vec Ideal S64 .f32) (ix1 a) = (V m c main_arg9 : S64.Idx → EReal) (ix1 a) := by
  unfold iblk
  rw [View.read_apply]
  show V m c main_arg9 (((cfg0.win 7).blk t).view.emb (ix1 a)) = _
  congr 1
  funext d
  apply Fin.ext
  have hi := idx_facts t
  match d with
  | ⟨0, _⟩ => show win0_7.index t 0 * 64 + 1 * a.val = a.val; omega

/-- `beta` whole. -/
theorem beta_at (c : Dev nD) (t : Fin cfg0.N) (a : Fin 64) :
    (iblk m c 8 t : Vec Ideal S64 .f32) (ix1 a) = (V m c main_arg10 : S64.Idx → EReal) (ix1 a) := by
  unfold iblk
  rw [View.read_apply]
  show V m c main_arg10 (((cfg0.win 8).blk t).view.emb (ix1 a)) = _
  congr 1
  funext d
  apply Fin.ext
  have hi := idx_facts t
  match d with
  | ⟨0, _⟩ => show win0_8.index t 0 * 64 + 1 * a.val = a.val; omega

/-- `S_tail` whole. -/
theorem stail_at (c : Dev nD) (t : Fin cfg0.N) (a : Fin 64) :
    (iblk m c 9 t : Vec Ideal S64 .f32) (ix1 a) = (V m c main_arg7 : S64.Idx → EReal) (ix1 a) := by
  unfold iblk
  rw [View.read_apply]
  show V m c main_arg7 (((cfg0.win 9).blk t).view.emb (ix1 a)) = _
  congr 1
  funext d
  apply Fin.ext
  have hi := idx_facts t
  match d with
  | ⟨0, _⟩ => show win0_9.index t 0 * 64 + 1 * a.val = a.val; omega

/-- The bias block: the point's output columns. -/
theorem bias_at (c : Dev nD) (t : Fin cfg0.N) (a : Fin 512) :
    (iblk m c 11 t : Vec Ideal S512 .f32) (ix1 a) = (V m c main_arg2 : S4096.Idx → EReal) (ix1 (colOf t a)) := by
  unfold iblk
  rw [View.read_apply]
  show V m c main_arg2 (((cfg0.win 11).blk t).view.emb (ix1 a)) = _
  congr 1
  funext d
  apply Fin.ext
  have hi := idx_facts t
  match d with
  | ⟨0, _⟩ => show win0_11.index t 0 * 512 + 1 * a.val = 512 * (t.val / 8 % 8) + a.val; omega

/-! ## The arrays the region finds are the arguments -/

/-- The array `x`'s window stages: `x` with its two leading axes merged (the format change is the identity). -/
theorem V_x (c : Dev nD) (r : Fin 16384) (k : Fin 4096) :
    (V m c main_v1 : S16384x4096.Idx → EReal) (ix2 r k) = x2 (inputs m c) r k := by
  have e : (V m c main_v1 : S16384x4096.Idx → EReal)
      = truncf (F := Ideal) .bf16 (shapeCast S16384x4096 (m ((c.tc : Thread nD τ).loc main_arg0)) shapeCasts_S4x4096x4096_S16384x4096) bitsLt_bf16_f32 := by
    show StableHlo.after hostOps0 (fun b => m (c, b)) (Proc.devRef .tc main_v1) = _
    after_results
    rfl
  rw [e]
  show shapeCast S16384x4096 (m ((c.tc : Thread nD τ).loc main_arg0)) shapeCasts_S4x4096x4096_S16384x4096 (ix2 r k) = _
  refine (shapeCast_apply _ _ (ix2 r k) (ix3 ⟨r.val / 4096, by have := r.isLt; omega⟩ ⟨r.val % 4096, Nat.mod_lt _ (by decide)⟩ k) ?_).trans rfl
  rw [Shape.rowMajor_val_three, Shape.rowMajor_val_two]
  show (r.val / 4096 * 4096 + r.val % 4096) * 4096 + k.val = r.val * 4096 + k.val
  omega

/-- `W`. -/
theorem V_W (c : Dev nD) : (V m c main_v2 : S4096x4096.Idx → EReal) = (inputs m c).W := by
  have e : (V m c main_v2 : S4096x4096.Idx → EReal) = truncf (F := Ideal) .bf16 (m ((c.tc : Thread nD τ).loc main_arg1)) bitsLt_bf16_f32 := by
    show StableHlo.after hostOps0 (fun b => m (c, b)) (Proc.devRef .tc main_v2) = _
    after_results
  rw [e]
  rfl

/-- `U_top`. -/
theorem V_Utop (c : Dev nD) : (V m c main_v3 : S4096x64.Idx → EReal) = (inputs m c).Utop := by
  have e : (V m c main_v3 : S4096x64.Idx → EReal) = truncf (F := Ideal) .bf16 (m ((c.tc : Thread nD τ).loc main_arg3)) bitsLt_bf16_f32 := by
    show StableHlo.after hostOps0 (fun b => m (c, b)) (Proc.devRef .tc main_v3) = _
    after_results
  rw [e]
  rfl

/-- `Vh_top`. -/
theorem V_VhTop (c : Dev nD) : (V m c main_v4 : S64x4096.Idx → EReal) = (inputs m c).VhTop := by
  have e : (V m c main_v4 : S64x4096.Idx → EReal) = truncf (F := Ideal) .bf16 (m ((c.tc : Thread nD τ).loc main_arg5)) bitsLt_bf16_f32 := by
    show StableHlo.after hostOps0 (fun b => m (c, b)) (Proc.devRef .tc main_v4) = _
    after_results
  rw [e]
  rfl

/-- `U_tail`. -/
theorem V_Utail (c : Dev nD) : (V m c main_v5 : S4096x64.Idx → EReal) = (inputs m c).Utail := by
  have e : (V m c main_v5 : S4096x64.Idx → EReal) = truncf (F := Ideal) .bf16 (m ((c.tc : Thread nD τ).loc main_arg6)) bitsLt_bf16_f32 := by
    show StableHlo.after hostOps0 (fun b => m (c, b)) (Proc.devRef .tc main_v5) = _
    after_results
  rw [e]
  rfl

/-- `Vh_tail`. -/
theorem V_VhTail (c : Dev nD) : (V m c main_v6 : S64x4096.Idx → EReal) = (inputs m c).VhTail := by
  have e : (V m c main_v6 : S64x4096.Idx → EReal) = truncf (F := Ideal) .bf16 (m ((c.tc : Thread nD τ).loc main_arg8)) bitsLt_bf16_f32 := by
    show StableHlo.after hostOps0 (fun b => m (c, b)) (Proc.devRef .tc main_v6) = _
    after_results
  rw [e]
  rfl

/-- `R`. -/
theorem V_R (c : Dev nD) : (V m c main_v7 : S64x64.Idx → EReal) = (inputs m c).R := by
  have e : (V m c main_v7 : S64x64.Idx → EReal) = truncf (F := Ideal) .bf16 (m ((c.tc : Thread nD τ).loc main_arg11)) bitsLt_bf16_f32 := by
    show StableHlo.after hostOps0 (fun b => m (c, b)) (Proc.devRef .tc main_v7) = _
    after_results
  rw [e]
  rfl

theorem V_Stop (c : Dev nD) : (V m c main_arg4 : S64.Idx → EReal) = (inputs m c).Stop := V_main_arg4 m c
theorem V_alpha (c : Dev nD) : (V m c main_arg9 : S64.Idx → EReal) = (inputs m c).alpha := V_main_arg9 m c
theorem V_beta (c : Dev nD) : (V m c main_arg10 : S64.Idx → EReal) = (inputs m c).beta := V_main_arg10 m c
theorem V_Stail (c : Dev nD) : (V m c main_arg7 : S64.Idx → EReal) = (inputs m c).Stail := V_main_arg7 m c
theorem V_bias (c : Dev nD) : (V m c main_arg2 : S4096.Idx → EReal) = (inputs m c).bias := V_main_arg2 m c

end Cert.KernelIdeal.Blocks

end
-- ==== Proof.Accum.lean ====
/-
  The accumulation across a run of eight grid points, entry by entry, and what the run's last point writes back.
  Point `t` adds to the accumulator's entry (p, n) the partial product of flattened row `rowOf t p` of `x` with row
  `colOf t n` of the adapted weight over the point's 512 contracted indices. The eight points 8q … 8q + 7 share their
  row block and column block and walk the eight blocks of contracted indices in order, so after the last of them the
  accumulator holds the whole product over all 4096 contracted indices (a finite sum cut into consecutive runs), and
  the output block is that product plus the bias.
-/
import proofs.«108158_j38568806318480_1_alg».proof.Proof.Cases
import proofs.«108158_j38568806318480_1_alg».proof.Proof.Payload
import proofs.«108158_j38568806318480_1_alg».proof.Proof.Blocks

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.Salt Cert.KernelIdeal.Blocks

variable (m : (ℓ : Loc nD τ sig) → Buf (Elt Ideal) ℓ)

/-- One entry of the layer's output over the flattened rows of `x`. -/
def out2 (I : Inputs) (r : Fin 16384) (o : Fin 4096) : EReal := (∑ k : Fin 4096, x2 I r k * weight I o k) + I.bias (ix1 o)

/-! ## The weight block a point adapts -/

theorem top_blk (c : Dev nD) (t : Fin cfg0.N) (n kk : Fin 512) :
    k0_pay4 (F := Ideal) (iblk m c 6 t) (iblk m c 7 t) (iblk m c 8 t) (iblk m c 2 t) (iblk m c 3 t) (ix2 n kk)
      = top (inputs m c) (colOf t n) (kOf t kk) := by
  refine (Pay.pay4_apply _ _ _ _ _ n kk).trans ?_
  unfold top gate
  refine Finset.sum_congr rfl fun r _ => ?_
  rw [utop_at m c t n r, vhtop_at m c t r kk, stop_at m c t r, alpha_at m c t r, beta_at m c t r, V_Utop, V_VhTop, V_Stop,
    V_alpha, V_beta]

theorem tail_blk (c : Dev nD) (t : Fin cfg0.N) (n kk : Fin 512) :
    k0_pay5 (F := Ideal) (iblk m c 4 t) (iblk m c 9 t) (iblk m c 10 t) (iblk m c 5 t) (ix2 n kk)
      = tail (inputs m c) (colOf t n) (kOf t kk) := by
  refine (Pay.pay5_apply _ _ _ _ n kk).trans ?_
  unfold tail mixed
  refine Finset.sum_congr rfl fun r _ => ?_
  rw [utail_at m c t n r, stail_at m c t r, V_Utail, V_Stail]
  congr 1
  refine Finset.sum_congr rfl fun s _ => ?_
  rw [r_at m c t r s, vhtail_at m c t s kk, V_R, V_VhTail]

/-- One step at point `t`, at an entry: the accumulator's entry plus the point's partial product. -/
theorem step_at (c : Dev nD) (t : Fin cfg0.N) (acc : Vec Ideal S2048x512 .f32) (p : Fin 2048) (n : Fin 512) :
    Cases.stepAt m c t acc (ix2 p n)
      = acc (ix2 p n) + ∑ kk : Fin 512, x2 (inputs m c) (rowOf t p) (kOf t kk) * weight (inputs m c) (colOf t n) (kOf t kk) := by
  refine (Pay.pay1_apply _ _ _ _ _ p n).trans ?_
  congr 1
  refine Finset.sum_congr rfl fun kk _ => ?_
  rw [xblk_at m c t p kk, V_x, wblk_at m c t n kk, V_W, top_blk m c t n kk, tail_blk m c t n kk]
  rfl

/-! ## The run of eight -/

/-- What point `u` adds at entry (p, n) of its block (`0` past the grid). -/
def addend (c : Dev nD) (u : ℕ) (p : Fin 2048) (n : Fin 512) : EReal :=
  if h : u < cfg0.N then
    ∑ kk : Fin 512, x2 (inputs m c) (rowOf ⟨u, h⟩ p) (kOf ⟨u, h⟩ kk) * weight (inputs m c) (colOf ⟨u, h⟩ n) (kOf ⟨u, h⟩ kk)
  else 0

/-- After point 8q + j (j < 8) the accumulator's entry is the sum of what points 8q … 8q + j added. -/
theorem acc_inv (c : Dev nD) (q : ℕ) : ∀ (j : ℕ), j < 8 → ∀ (h : 8 * q + j < cfg0.N) (p : Fin 2048) (n : Fin 512),
    ((outsAt0 m c (8 * q + j) h).2 : Vec Ideal S2048x512 .f32) (ix2 p n)
      = ∑ s ∈ Finset.range (j + 1), addend m c (8 * q + s) p n
  | 0, _, h, p, n => by
    have e := Cases.scratch_first m c ⟨8 * q + 0, h⟩ (by show (8 * q + 0) % 8 = 0; omega)
    rw [show (outsAt0 m c (8 * q + 0) h).2 = _ from e, step_at, Pay.pay3_apply, zero_add, Finset.sum_range_one, addend,
      dif_pos h]
  | j + 1, hj, h, p, n => by
    have e := Cases.scratch_next m c ⟨8 * q + (j + 1), h⟩ (by show ¬(8 * q + (j + 1)) % 8 = 0; omega)
    have hp : ∀ (u : ℕ) (hu : u < cfg0.N), u = 8 * q + j →
        ((outsAt0 m c u hu).2 : Vec Ideal S2048x512 .f32) (ix2 p n) = ∑ s ∈ Finset.range (j + 1), addend m c (8 * q + s) p n := by
      intro u hu eu; subst eu; exact acc_inv c q j (by omega) hu p n
    rw [show (outsAt0 m c (8 * q + (j + 1)) h).2 = _ from e, step_at, Finset.sum_range_succ _ (j + 1),
      hp _ _ (by show 8 * q + (j + 1) - 1 = 8 * q + j; omega)]
    congr 1
    rw [addend, dif_pos h]

/-- A point of the run that ends at `t` adds its block of the whole product of `t`'s row and column. -/
theorem addend_eq (c : Dev nD) (t : Fin cfg0.N) (s : ℕ) (hs : s < 8) (p : Fin 2048) (n : Fin 512) :
    addend m c (8 * (t.val / 8) + s) p n
      = ∑ kk : Fin 512, ext0 (fun k => x2 (inputs m c) (rowOf t p) k * weight (inputs m c) (colOf t n) k) (512 * s + kk.val) := by
  have hN := N512
  have hu : 8 * (t.val / 8) + s < cfg0.N := by have := t.isLt; omega
  rw [addend, dif_pos hu]
  refine Finset.sum_congr rfl fun kk _ => ?_
  have hk := kk.isLt
  rw [ext0_of_lt _ _ (by omega)]
  have e1 : rowOf ⟨8 * (t.val / 8) + s, hu⟩ p = rowOf t p :=
    Fin.ext (by show 2048 * ((8 * (t.val / 8) + s) / 64) + p.val = 2048 * (t.val / 64) + p.val; omega)
  have e2 : colOf ⟨8 * (t.val / 8) + s, hu⟩ n = colOf t n :=
    Fin.ext (by show 512 * ((8 * (t.val / 8) + s) / 8 % 8) + n.val = 512 * (t.val / 8 % 8) + n.val; omega)
  have e3 : kOf ⟨8 * (t.val / 8) + s, hu⟩ kk = ⟨512 * s + kk.val, by omega⟩ :=
    Fin.ext (by show 512 * ((8 * (t.val / 8) + s) % 8) + kk.val = 512 * s + kk.val; omega)
  rw [e1, e2, e3]

/-- What the last point of a run leaves in the output block: the layer's output at the block's rows and columns. -/
theorem out_block (c : Dev nD) (t : Fin cfg0.N) (h7 : t.val % 8 = 7) (p : Fin 2048) (n : Fin 512) :
    ((outsAt0 m c t.val t.isLt).1 : Vec Ideal S2048x512 .f32) (ix2 p n) = out2 (inputs m c) (rowOf t p) (colOf t n) := by
  have hN := N512
  have hlt := t.isLt
  rw [Cases.out_last m c t h7]
  refine (Pay.pay2_apply _ _ p n).trans ?_
  rw [step_at, bias_at m c t n, V_bias]
  unfold out2
  congr 1
  have hp : ∀ (u : ℕ) (hu : u < cfg0.N), u = 8 * (t.val / 8) + 6 →
      ((outsAt0 m c u hu).2 : Vec Ideal S2048x512 .f32) (ix2 p n) = ∑ s ∈ Finset.range (6 + 1), addend m c (8 * (t.val / 8) + s) p n := by
    intro u hu eu; subst eu; exact acc_inv m c (t.val / 8) 6 (by omega) hu p n
  rw [hp _ _ (by omega)]
  have hlast : (∑ kk : Fin 512, x2 (inputs m c) (rowOf t p) (kOf t kk) * weight (inputs m c) (colOf t n) (kOf t kk))
      = addend m c (8 * (t.val / 8) + 7) p n := by
    have e : ∀ (u : ℕ), u = t.val → addend m c u p n
        = ∑ kk : Fin 512, x2 (inputs m c) (rowOf t p) (kOf t kk) * weight (inputs m c) (colOf t n) (kOf t kk) := by
      intro u eu; subst eu; rw [addend, dif_pos t.isLt]
    exact (e _ (by omega)).symm
  rw [hlast, ← Finset.sum_range_succ (fun s => addend m c (8 * (t.val / 8) + s) p n) 7]
  rw [Finset.sum_congr rfl fun s hs => addend_eq m c t s (Finset.mem_range.mp hs) p n]
  exact sum_range_blocks _

end Cert.KernelIdeal.Accum

end
-- ==== Proof.Cover.lean ====
/-
  The kernel's output window: the grid is 8 × 8 × 8 in row-major order, the point `t` works on row block `t / 64`,
  column block `t / 8 % 8` and contraction block `t % 8`. The output array of 16384 × 4096 entries is cut into blocks of
  2048 × 512, block `(t / 64, t / 8 % 8)` belongs to point `t`, and it is written back at the last contraction block
  only (`t % 8 = 7`). The blocks written back cover the array: index `(r, c)` lies in the block of the point
  `64 * (r / 2048) + 8 * (c / 512) + 7`. The program's last operation reads the array as 4 × 4096 × 4096 in row-major
  order: entry `(b, s, o)` is entry `(4096 * b + s, o)`.
-/
import proofs.«108158_j38568806318480_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Cover

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The output window's block index at point `t`: row block `t / 64`, column block `t / 8 % 8`. Decided over the grid's
    512 points. -/
theorem idx12 : ∀ t : Fin cfg0.N, win0_12.index t 0 = t.val / 64 ∧ win0_12.index t 1 = t.val / 8 % 8 :=
  (by decide +kernel : ∀ t : Fin grid0.N, _)

/-- An index of the array is in point `t`'s block iff each coordinate is in the block's range on its axis. -/
theorem mem_blk12 (t : Fin cfg0.N) (i : S16384x4096.Idx) :
    i ∈ ((cfg0.win 12).blk t).view.set ↔ ∀ a : Fin 2, win0_12.index t a * S2048x512.size a ≤ (i a).val ∧ (i a).val < win0_12.index t a * S2048x512.size a + S2048x512.size a := by
  show i ∈ ((View.whole main_v8).slice (win0_12.rect t)).set ↔ _
  rw [View.set_slice_whole, Rect.mem_set_unit]
  exact Iff.rfl

/-- Every index of the array lies in a block that is written back: that of the last contraction step of its row block
    and column block. -/
theorem cover12 (i : S16384x4096.Idx) :
    ∃ t : Fin cfg0.N, (cfg0.win 12).flush t = true ∧ i ∈ ((cfg0.win 12).blk t).view.set := by
  have hN : cfg0.N = 512 := N_0
  have h0 : (i 0).val < 16384 := (i 0).isLt
  have h1 : (i 1).val < 4096 := (i 1).isLt
  obtain ⟨t, ht⟩ : ∃ t : Fin cfg0.N, t.val = 64 * ((i 0).val / 2048) + 8 * ((i 1).val / 512) + 7 :=
    ⟨⟨64 * ((i 0).val / 2048) + 8 * ((i 1).val / 512) + 7, by omega⟩, rfl⟩
  refine ⟨t, (flush0_12 t).mpr (by omega), ?_⟩
  rw [mem_blk12]
  obtain ⟨e0, e1⟩ := idx12 t
  intro a
  match a with
  | ⟨0, _⟩ =>
    show win0_12.index t 0 * 2048 ≤ (i 0).val ∧ (i 0).val < win0_12.index t 0 * 2048 + 2048
    omega
  | ⟨1, _⟩ =>
    show win0_12.index t 1 * 512 ≤ (i 1).val ∧ (i 1).val < win0_12.index t 1 * 512 + 512
    omega

/-- The array of 16384 × 4096 entries read as 4 × 4096 × 4096 in row-major order: entry `(b, s, o)` is entry
    `(4096 * b + s, o)`, both being entry `(4096 * b + s) * 4096 + o` of the flat array. -/
theorem reshape_at (G : S16384x4096.Idx → EReal) (b : Fin 4) (s o : Fin 4096) :
    shapeCast S4x4096x4096 G shapeCasts_S16384x4096_S4x4096x4096 (ix3 b s o)
      = G (ix2 ⟨4096 * b.val + s.val, by have := b.isLt; have := s.isLt; omega⟩ o) := by
  refine shapeCast_apply G shapeCasts_S16384x4096_S4x4096x4096 (ix3 b s o) _ ?_
  rw [Shape.rowMajor_val_two, Shape.rowMajor_val_three]
  show (4096 * b.val + s.val) * 4096 + o.val = (b.val * 4096 + s.val) * 4096 + o.val
  omega

/-- After the program's last operation the result array is the kernel's output array read in the result's shape. -/
theorem tail_result (c : Dev nD) (G : S16384x4096.Idx → EReal)
    (hfinal : ((dats m 0 c).arrAt 12 cfg0.N : S16384x4096.Idx → EReal) = G) :
    (Pipeline.afterTail₀ cfgs (dats m) 0 (V0 m) [hostOps1] c main_v9 : S4x4096x4096.Idx → EReal)
      = shapeCast S4x4096x4096 G shapeCasts_S16384x4096_S4x4096x4096 := by
  unfold Pipeline.afterTail₀
  show StableHlo.after hostOps1 _ (Proc.devRef .tc main_v9) = _
  after_results
  have e : (Pipeline.withArrays (cfgs 0).spec c (V0 m c) (fun w => (dats m 0 c).arrAt w (cfgs 0).N)
      (Proc.tc.devRef main_v8) : S16384x4096.Idx → EReal) = G :=
    (Pipeline.withArrays_arr spec0 launch0.win.arr_inj c _ _ 12).trans hfinal
  exact congrArg (fun x : S16384x4096.Idx → EReal => shapeCast S4x4096x4096 x shapeCasts_S16384x4096_S4x4096x4096) e

end Cert.KernelIdeal.Cover

end
-- ==== Proof.Layer.lean ====
/-
  The kernel program's run, read: its result array ends at the layer's output `Cert.Salt.result` of the argument arrays.
  Each run of eight grid points writes back, at its last point, one [2048, 512] block of the output over the flattened
  rows; the 64 blocks written back tile that [16384, 4096] array; and the program's last operation splits the flattened
  rows back into batch and position.
-/
import proofs.«108158_j38568806318480_1_alg».proof.Proof.Accum
import proofs.«108158_j38568806318480_1_alg».proof.Proof.Cover

noncomputable section

open scoped BigOperators
open Idealize.ShloMosaic Idealize.ShloMosaic.TcCoe Idealize.SL.Sem
open Idealize.ShloMosaic.Pipeline (Dat)

namespace Cert.KernelIdeal.Layer

open Cert.KernelIdeal Cert.KernelIdeal.Gen Idealize.ShloMosaic.ValueIdx Cert.Salt Cert.KernelIdeal.Blocks Cert.KernelIdeal.Accum
  Cert.KernelIdeal.Cover

variable (m : (ℓ : Loc nD τ sig) → Buf (Elt Ideal) ℓ) (ρ : Dev nD → PrngReg)

/-- The layer's output over the flattened rows of `x`: what the region leaves in its result array. -/
def flat (c : Dev nD) : S16384x4096.Idx → EReal := fun i => out2 (inputs m c) (i 0) (i 1)

/-- What a point that writes back writes back is its block of `flat`. -/
theorem flushed_eq (c : Dev nD) (t : Fin cfg0.N) (hf : (cfg0.win 12).flush t = true) :
    (dats m 0 c).flushed 12 t = ((cfg0.win 12).blk t).view.read (Elt Ideal) (flat m c) := by
  have h7 := (flush0_12 t).mp hf
  show (cfg0.win 12).cut (grid0.coords t) ((dats m 0 c).after 12 t) = _
  rw [after0_12]
  funext j
  obtain ⟨p, n, rfl⟩ : ∃ (p : Fin 2048) (n : Fin 512), j = ix2 p n := ⟨j 0, j 1, eq_ix2 j⟩
  show ((outsAt0 m c t.val t.isLt).1 : Vec Ideal S2048x512 .f32) (ix2 p n)
    = out2 (inputs m c) ((((cfg0.win 12).blk t).view.emb (ix2 p n)) 0) ((((cfg0.win 12).blk t).view.emb (ix2 p n)) 1)
  rw [out_block m c t h7 p n]
  have hi := idx12 t
  congr 1 <;> apply Fin.ext
  · show 2048 * (t.val / 64) + p.val = win0_12.index t 0 * 2048 + 1 * p.val; omega
  · show 512 * (t.val / 8 % 8) + n.val = win0_12.index t 1 * 512 + 1 * n.val; omega

/-- The region's result array after the run. -/
theorem final (c : Dev nD) : (dats m 0 c).arrAt 12 cfg0.N = flat m c :=
  (dats m 0 c).arrAt_eq_of_cover 12 (flat m c) (flushed_eq m c) cover12

/-- Splitting the flattened rows back gives the layer's output. -/
theorem unflatten (c : Dev nD) :
    shapeCast S4x4096x4096 (flat m c) shapeCasts_S16384x4096_S4x4096x4096 = result (inputs m c) := by
  funext i
  obtain ⟨b, s, o, rfl⟩ : ∃ (b : Fin 4) (s o : Fin 4096), i = ix3 b s o := ⟨i 0, i 1, i 2, eq_ix3 i⟩
  rw [reshape_at, result_ix3]
  unfold flat out2 out
  have hb := b.isLt
  have hs := s.isLt
  congr 1
  refine Finset.sum_congr rfl fun k _ => ?_
  congr 1
  unfold x2
  congr 1
  funext a
  apply Fin.ext
  match a with
  | ⟨0, _⟩ => show (4096 * b.val + s.val) / 4096 = b.val; omega
  | ⟨1, _⟩ => show (4096 * b.val + s.val) % 4096 = s.val; omega
  | ⟨2, _⟩ => rfl

/-- The program's result. -/
theorem result_eq (c : Dev nD) :
    (Pipeline.afterTail₀ cfgs (dats m) 0 (V0 m) [hostOps1] c main_v9 : S4x4096x4096.Idx → EReal) = result (inputs m c) :=
  (tail_result m c (flat m c) (final m c)).trans (unflatten m c)

/-- Every weakly fair execution of the kernel program ends with its result array at the layer's output of the
    arguments and the arguments unchanged. -/
theorem run : θ_run defs (onTc (τ := τ) (main (F := Ideal))) ⟨m, fun _ => 0, ρ⟩ fun r => ∀ c : Dev nD,
      r.2.mem ((c.tc : Thread nD τ).loc main_v9) = result (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v9 (Pipeline.mem_restRefs_of main_v9 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 11).trans (((dats m 0 c).arrAt_in 11 rfl _).trans ((A_eq m c 11).trans (V_main_arg2 m c))),
      (((h c).2 main_arg3 (Pipeline.mem_restRefs_of main_arg3 (by decide) (by decide))).trans (W_main_arg3 m (dats m) c)),
      ((h c).1 6).trans (((dats m 0 c).arrAt_in 6 rfl _).trans ((A_eq m c 6).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 9).trans (((dats m 0 c).arrAt_in 9 rfl _).trans ((A_eq m c 9).trans (V_main_arg7 m c))),
      (((h c).2 main_arg8 (Pipeline.mem_restRefs_of main_arg8 (by decide) (by decide))).trans (W_main_arg8 m (dats m) c)),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      (((h c).2 main_arg11 (Pipeline.mem_restRefs_of main_arg11 (by decide) (by decide))).trans (W_main_arg11 m (dats m) c))⟩)
    (run_main m ρ)

end Cert.KernelIdeal.Layer

end
-- ==== Proof.lean ====
/-
  The certificate of a linear layer whose weight is adapted, before use, by two rank-64 corrections:
    gate = max (S_top * alpha + beta) 0,   weight = (W + (U_top · diag gate) · Vh_top) + (U_tail · diag S_tail) · (R · Vh_tail),
    out  = x · weightᵀ + bias.
  The kernel tiles the output into [2048, 512] blocks over the flattened rows of `x` and, for each block, walks the
  4096 contracted indices in eight blocks of 512: at each step it rebuilds the adapted weight block from the rank-64
  factors and adds the block product into an accumulator, zeroed at the first step; at the last step it adds the bias
  and writes the block back. Over the extended reals the conversions between float formats are the identity and every
  product is a plain finite sum, so the kernel's result differs from the reference's only in that the sum over the
  contracted index is cut into eight consecutive runs added in order — the same sum in an additive commutative monoid.
  No finiteness of the inputs is needed. The idealization rewrote nothing, so `preserves` is `True`.
-/
import proofs.«108158_j38568806318480_1_alg».proof.Defs
import proofs.«108158_j38568806318480_1_alg».proof.Proof.Gen.Kernel
import proofs.«108158_j38568806318480_1_alg».proof.Proof.Gen.Kernel.Skeleton
import proofs.«108158_j38568806318480_1_alg».proof.Proof.Gen.Kernel.Launch
import proofs.«108158_j38568806318480_1_alg».proof.Proof.Gen.Kernel.Points
import proofs.«108158_j38568806318480_1_alg».proof.Proof.Gen.Kernel.Frame
import proofs.«108158_j38568806318480_1_alg».proof.Proof.Gen.KernelIdeal
import proofs.«108158_j38568806318480_1_alg».proof.Proof.Gen.KernelIdeal.Skeleton
import proofs.«108158_j38568806318480_1_alg».proof.Proof.Gen.KernelIdeal.Launch
import proofs.«108158_j38568806318480_1_alg».proof.Proof.Gen.KernelIdeal.Points
import proofs.«108158_j38568806318480_1_alg».proof.Proof.Gen.KernelIdeal.Frame
import proofs.«108158_j38568806318480_1_alg».proof.Proof.Gen.ReferenceIdeal
import proofs.«108158_j38568806318480_1_alg».proof.Proof.Gen.ReferenceIdeal.Run
import proofs.«108158_j38568806318480_1_alg».proof.Proof.Gen.ReferenceIdeal.Read
import proofs.«108158_j38568806318480_1_alg».proof.Proof.Gen.Pre_finite_inputs
import proofs.«108158_j38568806318480_1_alg».proof.Proof.RefValue
import proofs.«108158_j38568806318480_1_alg».proof.Proof.Layer
import Idealize.ShloMosaic.Adequacy
import Idealize.ShloMosaic.Init

noncomputable section

namespace Cert.Proof

open Idealize.ShloMosaic Idealize.SL.Sem

/-- The kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the twelve arguments both programs end at the layer's output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Salt.result (Cert.KernelIdeal.Blocks.inputs m c), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_result]
  obtain ⟨h0, h1, h2, h3, h4, h5, h6, h7, h8, h9, h10, h11⟩ := hagree c
  unfold Cert.KernelIdeal.Blocks.inputs
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
